-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x5632 : S_.BroadcastsInDim S8x2048x5632 (![] : Fin 0 → Fin S8x2048x5632.rank)
  reducesTo_S8x2048x5632_S_d0_1_2 : S8x2048x5632.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn_part1 {F : FTy → Type} [FloatOps F] (main_v13 : IVec S_ 1) (main_v16 : IVec S8x2048x5632 1) : IVec S_ 1 :=
  let main_c_5 : IVec S_ 1 := constantI S_ 1 1#1
  let main_v17 : IVec S_ 1 := (fun x v => Host.reduce IntOp.andi x v reducesTo_S8x2048x5632_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x5632 .f32) (main_arg2 : FVec F S8x5632x2048 .f32) (main_arg3 : FVec F S8x2048x5632 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x5632 .f32 := Host.absf main_arg1
  let main_cst_0 : FVec F S_ .f32 := constant S_ .f32 0x7F800000#32
  let main_v5 : FVec F S8x2048x5632 .f32 := broadcastInDim S8x2048x5632 ![] bcast_S_S8x2048x5632 main_cst_0
  let main_v6 : IVec S8x2048x5632 1 := cmpf .olt main_v4 main_v5
  let main_c_1 : IVec S_ 1 := constantI S_ 1 1#1
  let main_v7 : IVec S_ 1 := (fun x v => Host.reduce IntOp.andi x v reducesTo_S8x2048x5632_S_d0_1_2 h_S_) main_v6 main_c_1
  let main_v8 : IVec S_ 1 := andi main_v3 main_v7
  let main_v9 : FVec F S8x5632x2048 .f32 := Host.absf main_arg2
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  let main_v14 : FVec F S8x2048x5632 .f32 := Host.absf main_arg3
  let main_cst_4 : FVec F S_ .f32 := constant S_ .f32 0x7F800000#32
  let main_v15 : FVec F S8x2048x5632 .f32 := broadcastInDim S8x2048x5632 ![] bcast_S_S8x2048x5632 main_cst_4
  let main_v16 : IVec S8x2048x5632 1 := cmpf .olt main_v14 main_v15
  fn_part1 (F := F) main_v13 main_v16
-- ==== Kernel.lean ====
abbrev S8x2048x2048 : Shape := ⟨3, ![8, 2048, 2048]⟩
abbrev S8x2048x5632 : Shape := ⟨3, ![8, 2048, 5632]⟩
abbrev S8x5632x2048 : Shape := ⟨3, ![8, 5632, 2048]⟩
abbrev S1x512x2048 : Shape := ⟨3, ![1, 512, 2048]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x5632, .f32⟩
  | .hbm, ⟨2, _⟩ => ⟨S8x5632x2048, .f32⟩
  | .hbm, ⟨3, _⟩ => ⟨S8x2048x5632, .f32⟩
  | .hbm, ⟨4, _⟩ => ⟨S8x2048x2048, .bf16⟩
  | .hbm, ⟨5, _⟩ => ⟨S8x2048x5632, .bf16⟩
  | .hbm, ⟨6, _⟩ => ⟨S8x2048x5632, .bf16⟩
  | .hbm, ⟨7, _⟩ => ⟨S8x5632x2048, .bf16⟩
  | .hbm, ⟨8, _⟩ => ⟨S8x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v23 : BitVec 1 := Scalar.cmpi .eq arg2 c10_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S512x2048_S1x512x2048 : S512x2048.ShapeCasts S1x512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x5632.size a
  hwx0_1 : ∀ i : grid0.Coords, EltTy.bits .bf16 = 32 ∨ (Rect.block (s := S8x2048x5632) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x5632.size a
  hwx0_2 : ∀ i : grid0.Coords, EltTy.bits .bf16 = 32 ∨ (Rect.block (s := S8x2048x5632) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x5632x2048.size a
  hwx0_3 : ∀ i : grid0.Coords, EltTy.bits .bf16 = 32 ∨ (Rect.block (s := S8x5632x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x2048x5632 : Shape := ⟨3, ![8, 2048, 5632]⟩
abbrev S8x5632x2048 : Shape := ⟨3, ![8, 5632, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x5632, .f32⟩
  | .hbm, ⟨2, _⟩ => ⟨S8x5632x2048, .f32⟩
  | .hbm, ⟨3, _⟩ => ⟨S8x2048x5632, .f32⟩
  | .hbm, ⟨4, _⟩ => ⟨S8x2048x5632, .f32⟩
  | .hbm, ⟨5, _⟩ => ⟨S8x2048x5632, .f32⟩
  | .hbm, ⟨6, _⟩ => ⟨S8x2048x5632, .f32⟩
  | .hbm, ⟨7, _⟩ => ⟨S8x2048x5632, .f32⟩
  | .hbm, ⟨8, _⟩ => ⟨S_, .f32⟩
  | .hbm, ⟨9, _⟩ => ⟨S8x2048x5632, .f32⟩
  | .hbm, ⟨10, _⟩ => ⟨S8x2048x5632, .f32⟩
  | .hbm, ⟨11, _⟩ => ⟨S_, .f32⟩
  | .hbm, ⟨12, _⟩ => ⟨S8x2048x5632, .f32⟩
  | .hbm, ⟨13, _⟩ => ⟨S8x2048x5632, .f32⟩
  | .hbm, ⟨14, _⟩ => ⟨S8x2048x5632, .f32⟩
  | .hbm, ⟨15, _⟩ => ⟨S8x2048x5632, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x5632 : S_.BroadcastsInDim S8x2048x5632 (![] : Fin 0 → Fin S8x2048x5632.rank)
  dot_S8x2048x2048_S8x2048x5632_S8x2048x5632_2_1_1_2_0_0_wf : DotDims.WF S8x2048x2048 S8x2048x5632 S8x2048x5632 [2] [1] [1] [2] [0] [0]
  dot_S8x2048x5632_S8x5632x2048_S8x2048x2048_2_1_1_2_0_0_wf : DotDims.WF S8x2048x5632 S8x5632x2048 S8x2048x2048 [2] [1] [1] [2] [0] [0]

variable [Facts₀]

def dot_S8x2048x2048_S8x2048x5632_S8x2048x5632_2_1_1_2_0_0 : DotDims S8x2048x2048 S8x2048x5632 S8x2048x5632 where
  lhsContracting := [2]
  rhsContracting := [1]
  lhsNonContracting := [1]
  rhsNonContracting := [2]
  lhsBatch := [0]
  rhsBatch := [0]
  wf := dot_S8x2048x2048_S8x2048x5632_S8x2048x5632_2_1_1_2_0_0_wf
def dot_S8x2048x5632_S8x5632x2048_S8x2048x2048_2_1_1_2_0_0 : DotDims S8x2048x5632 S8x5632x2048 S8x2048x2048 where
  lhsContracting := [2]
  rhsContracting := [1]
  lhsNonContracting := [1]
  rhsNonContracting := [2]
  lhsBatch := [0]
  rhsBatch := [0]
  wf := dot_S8x2048x5632_S8x5632x2048_S8x2048x2048_2_1_1_2_0_0_wf

class Facts : Prop extends Facts₀ where

variable [Facts]
-- ==== Proof.Pieces.lean ====
/-
  What one run of the kernel body leaves behind, as values.

  The body keeps a running block `acc : [512, 2048]` in a scratch buffer. With the four input blocks of the grid point
  in hand it computes one update `upd acc = acc + (the point's contribution)` and stores it back whole; at the first
  step of a run along the hidden axis it first stores the zero block and reads that back, so the update starts from
  zero; at the last step it also copies the updated block, re-laid as `[1, 512, 2048]`, into the output's buffer.
  So, whatever the element type's arithmetic is:
    first step    scratch := upd 0
    middle steps  scratch := upd (what the step before left)
    last step     scratch := upd (what the step before left),  output := that same block.
  Each store covers its buffer from offset zero, so what the buffer holds afterwards is the stored value itself.
-/
import proofs.«172303_j13709535609205_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Ffn.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves in the scratch the update of what it found there. -/
theorem sout_B (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc0 : ¬cond0_0 i) (hc1 : ¬cond0_1 i) (x0 : Vec F S1x512x2048 .bf16) (x1 : Vec F S1x2048x512 .bf16) (x2 : Vec F S1x2048x512 .bf16) (x3 : Vec F S1x512x2048 .bf16) (xs0 : Vec F S512x2048 .f32) :
    sout0_B_0 c i a3 h3 a4 h4 a5 h5 a6 h6 a7 h7 a8 h8 hc0 hc1 x0 x1 x2 x3 xs0 = k0_pay2 x0 x1 x2 xs0 x3 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz2]
  simp only [View.readAt_eq_ld, h3.read_unread, h4.read_unread, h5.read_unread, h6.read_unread, h8.read_unread, View.ld_unit_zero (S := S1x512x2048) hz3, View.ld_unit_zero (S := S1x2048x512) hz3, View.ld_unit_zero (S := S512x2048) hz2]

/-- The first step leaves the update of the zero block: the zero block is stored, read back, updated and stored again,
    and the later store covers the earlier. -/
theorem sout_A (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc0 : cond0_0 i) (hc1 : ¬cond0_1 i) (x0 : Vec F S1x512x2048 .bf16) (x1 : Vec F S1x2048x512 .bf16) (x2 : Vec F S1x2048x512 .bf16) (x3 : Vec F S1x512x2048 .bf16) :
    sout0_A_0 c i a3 h3 a4 h4 a5 h5 a6 h6 a7 h7 a8 h8 hc0 hc1 x0 x1 x2 x3 = k0_pay2 x0 x1 x2 (k0_pay1 (F := F)) x3 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, h3.read_unread, h4.read_unread, h5.read_unread, h6.read_unread, h8.read_unread, View.ld_unit_zero (S := S1x512x2048) hz3, View.ld_unit_zero (S := S1x2048x512) hz3, View.ld_unit_zero (S := S512x2048) hz2]

/-- The last step leaves in the scratch the update of what it found there, -/
theorem sout_C (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc0 : ¬cond0_0 i) (hc1 : cond0_1 i) (x0 : Vec F S1x512x2048 .bf16) (x1 : Vec F S1x2048x512 .bf16) (x2 : Vec F S1x2048x512 .bf16) (x3 : Vec F S1x512x2048 .bf16) (xs0 : Vec F S512x2048 .f32) :
    sout0_C_0 c i a3 h3 a4 h4 a5 h5 a6 h6 a7 h7 a8 h8 hc0 hc1 x0 x1 x2 x3 xs0 = k0_pay2 x0 x1 x2 xs0 x3 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread, View.ld_unit_zero (S := S1x512x2048) hz3, View.ld_unit_zero (S := S1x2048x512) hz3, View.ld_unit_zero (S := S512x2048) hz2]

/-- and in the output's buffer that same updated block, read back from the scratch and re-laid with a leading unit axis. -/
theorem out_C (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc0 : ¬cond0_0 i) (hc1 : cond0_1 i) (x0 : Vec F S1x512x2048 .bf16) (x1 : Vec F S1x2048x512 .bf16) (x2 : Vec F S1x2048x512 .bf16) (x3 : Vec F S1x512x2048 .bf16) (xs0 : Vec F S512x2048 .f32) :
    out0_C_4 c i a3 h3 a4 h4 a5 h5 a6 h6 a7 h7 a8 h8 hc0 hc1 x0 x1 x2 x3 xs0 = k0_pay3 (k0_pay2 x0 x1 x2 xs0 x3) := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz3]
  simp only [View.readAt_eq_ld, h3.read_unread, h4.read_unread, h5.read_unread, h6.read_unread, h8.read_unread, View.ld_unit_zero (S := S1x512x2048) hz3, View.ld_unit_zero (S := S1x2048x512) hz3, View.ld_unit_zero (S := S512x2048) hz2, View.readCov_unit_zero (S := S512x2048) _ hz2]

end Cert.Ffn.Pieces

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.Payload.lean ====
/-
  One update of the running block, entry by entry, on the extended reals.

  At a grid point the body holds a block `x : [1, 512, 2048]` of 512 tokens, blocks `u, v : [1, 2048, 512]` of 512 hidden
  columns of the two up-projections, a block `w : [1, 512, 2048]` of the matching 512 rows of the down-projection, and
  the running block `acc : [512, 2048]`. Row `p`, column `q` of the update is

    acc[p, q] + Σ_{r < 512} ((a_r · logistic a_r) · b_r) · w[0, r, q],   a_r = Σ_d x[0, p, d] · u[0, d, r],  b_r = Σ_d x[0, p, d] · v[0, d, r]

  — three matrix products into zero accumulators (plain sums on the extended reals), the narrowing to bf16 the identity,
  the unit axes dropped by re-laying.
-/
import proofs.«172303_j13709535609205_1_alg».proof.Proof.Gen.KernelIdeal.Skeleton
import proofs.«172303_j13709535609205_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.Ffn.Payload

open Cert.KernelIdeal Cert.KernelIdeal.Gen

/-- The printed dimension numbers of the two up-projection products and of the down-projection product are the plain
    "rows by columns" ones. -/
theorem dims_up : dot_S512x2048_S2048x512_S512x512_1_0_0_1_n_n = DotDims.plain 512 2048 512 := rfl
theorem dims_down : dot_S512x512_S512x2048_S512x2048_1_0_0_1_n_n = DotDims.plain 512 512 2048 := rfl

/-- A token block against a block of hidden columns: `Σ_d x[0, p, d] · u[0, d, r]`. -/
def bproj (x : Vec Ideal S1x512x2048 .bf16) (u : Vec Ideal S1x2048x512 .bf16) (p r : Fin 512) : EReal :=
  ∑ d : Fin 2048, x (ix3 (0 : Fin 1) p d) * u (ix3 (0 : Fin 1) d r)

/-- The gated activation of token row `p` at the block's hidden column `r`. -/
def bgate (x : Vec Ideal S1x512x2048 .bf16) (u v : Vec Ideal S1x2048x512 .bf16) (p r : Fin 512) : EReal :=
  (bproj x u p r * Ideal.logistic (bproj x u p r)) * bproj x v p r

/-- The logistic function acts entry by entry. -/
theorem logistic_apply {s : Shape} {φ : FTy} (a : FVec Ideal s φ) (i : s.Idx) : logistic a i = Ideal.logistic (a i) := rfl

/-- The up-projection product of the re-laid blocks, at `(p, r)`. -/
theorem up_apply (x : Vec Ideal S1x512x2048 .bf16) (u : Vec Ideal S1x2048x512 .bf16) (p r : Fin 512) :
    matmul dot_S512x2048_S2048x512_S512x512_1_0_0_1_n_n none
        (shapeCast S512x2048 x shapeCasts_S1x512x2048_S512x2048 : FVec Ideal S512x2048 .bf16)
        (shapeCast S2048x512 u shapeCasts_S1x2048x512_S2048x512 : FVec Ideal S2048x512 .bf16)
        (constant (F := Ideal) S512x512 .f32 0x00000000#32) (ix2 p r)
      = bproj x u p r := by
  rw [dims_up]
  refine (Idealize.ShloMosaic.PlainDot.matmul_zero_apply 512 2048 512 none _ _ p r).trans ?_
  unfold bproj
  refine Finset.sum_congr rfl fun d _ => ?_
  rw [shapeCast_1ab_ab_apply, shapeCast_1ab_ab_apply]

/-- One update of the running block at row `p`, column `q`. -/
theorem pay2_apply (x : Vec Ideal S1x512x2048 .bf16) (u v : Vec Ideal S1x2048x512 .bf16) (acc : Vec Ideal S512x2048 .f32)
    (w : Vec Ideal S1x512x2048 .bf16) (p : Fin 512) (q : Fin 2048) :
    k0_pay2 x u v acc w (ix2 p q) = acc (ix2 p q) + ∑ r : Fin 512, bgate x u v p r * w (ix3 (0 : Fin 1) r q) := by
  unfold k0_pay2
  rw [shapeCast_self]
  refine (addf_apply _ _ _).trans ?_
  refine congrArg (acc (ix2 p q) + ·) ?_
  rw [dims_down]
  refine (Idealize.ShloMosaic.PlainDot.matmul_zero_apply 512 512 2048 none _ _ p q).trans ?_
  refine Finset.sum_congr rfl fun r _ => ?_
  rw [shapeCast_1ab_ab_apply]
  refine congrArg (· * w (ix3 (0 : Fin 1) r q)) ?_
  rw [truncf_apply, mulf_apply, mulf_apply]
  rw [logistic_apply, up_apply, up_apply]
  rfl

/-- The zero block the first step stores is zero at every entry. -/
theorem pay1_apply (j : S512x2048.Idx) : k0_pay1 (F := Ideal) j = 0 := by
  unfold k0_pay1
  rw [shapeCast_self]
  exact Ideal.ofBits_zero_f32

/-- The block copied to the output's buffer is the running block with a leading unit axis. -/
theorem pay3_apply (acc : Vec Ideal S512x2048 .f32) (u : Fin 1) (p : Fin 512) (q : Fin 2048) :
    k0_pay3 acc (ix3 u p q) = acc (ix2 p q) := by
  unfold k0_pay3
  exact shapeCast_ab_1ab_apply acc _ u p q

end Cert.Ffn.Payload

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.Spec.lean ====
/-
  The gated feed-forward layer as one function of its four arrays.

  For a group `g`, a token `t` and an output column `o`, with `X : [8, 2048, 2048]`, `W₁, W₃ : [8, 2048, 5632]` and
  `W₂ : [8, 5632, 2048]`:

    a(g, t, h)   = Σ_d X[g, t, d] · W₁[g, d, h]          b(g, t, h) = Σ_d X[g, t, d] · W₃[g, d, h]
    gate(g,t,h)  = (a · logistic a) · b                   out[g, t, o] = Σ_h gate(g, t, h) · W₂[g, h, o]

  on the extended reals, `logistic a = 1 / (1 + e^(-a))`. The hidden axis has 5632 = 11 · 512 columns. A computation that
  walks it in eleven runs of 512, adding each run's sum to what it holds, holds after run `b` the sum of the first
  `512 · (b + 1)` terms and after the last run the whole sum: only commutativity and associativity of the addition are
  used, so nothing here asks the entries to be finite.
-/
import Idealize.ShloMosaic.PureOps.Ideal.Laws
import Idealize.ShloMosaic.Lib.ValueIdx
import proofs.«172303_j13709535609205_1_alg».proof.Proof.LibRunSums

noncomputable section

open scoped BigOperators

namespace Cert.Ffn

open Idealize.ShloMosaic Idealize.ShloMosaic.ValueIdx

/-- The shapes of the token array, of the two up-projections and of the down-projection. -/
abbrev SX : Shape := ⟨3, ![8, 2048, 2048]⟩
abbrev SU : Shape := ⟨3, ![8, 2048, 5632]⟩
abbrev SD : Shape := ⟨3, ![8, 5632, 2048]⟩

/-- A token's projection onto hidden column `h`: `Σ_d X[g, t, d] · W[g, d, h]`. -/
def proj (X : SX.Idx → EReal) (W : SU.Idx → EReal) (g : Fin 8) (t : Fin 2048) (h : Fin 5632) : EReal :=
  ∑ d : Fin 2048, X (ix3 g t d) * W (ix3 g d h)

/-- The gated hidden activation: `(a · logistic a) · b` of the two projections. -/
def gate (X : SX.Idx → EReal) (W1 W3 : SU.Idx → EReal) (g : Fin 8) (t : Fin 2048) (h : Fin 5632) : EReal :=
  (proj X W1 g t h * Ideal.logistic (proj X W1 g t h)) * proj X W3 g t h

/-- The layer's result: the gated activation contracted with the down-projection over all 5632 hidden columns. -/
def out (X : SX.Idx → EReal) (W1 W3 : SU.Idx → EReal) (W2 : SD.Idx → EReal) : SX.Idx → EReal :=
  fun i => ∑ h : Fin 5632, gate X W1 W3 (i 0) (i 1) h * W2 (ix3 (i 0) h (i 2))

/-- The `k`-th term of that contraction, listed by position (zero past the last column, where nothing is read). -/
def term (X : SX.Idx → EReal) (W1 W3 : SU.Idx → EReal) (W2 : SD.Idx → EReal) (g : Fin 8) (t o : Fin 2048) (k : ℕ) : EReal :=
  if h : k < 5632 then gate X W1 W3 g t ⟨k, h⟩ * W2 (ix3 g ⟨k, h⟩ o) else 0

/-- The sum of the first `n` terms. -/
def part (X : SX.Idx → EReal) (W1 W3 : SU.Idx → EReal) (W2 : SD.Idx → EReal) (g : Fin 8) (t o : Fin 2048) (n : ℕ) : EReal :=
  ∑ k ∈ Finset.range n, term X W1 W3 W2 g t o k

variable (X : SX.Idx → EReal) (W1 W3 : SU.Idx → EReal) (W2 : SD.Idx → EReal)

/-- Nothing plus the first run of 512 terms is the first 512 terms. -/
theorem part_first (g : Fin 8) (t o : Fin 2048) :
    (0 : EReal) + ∑ r : Fin 512, term X W1 W3 W2 g t o (512 * 0 + r.val) = part X W1 W3 W2 g t o (512 * (0 + 1)) := by
  rw [zero_add]
  exact Cert.RunSums.first_run 512 (term X W1 W3 W2 g t o)

/-- The first `512 · b` terms plus the next run of 512 are the first `512 · (b + 1)` terms. -/
theorem part_next (g : Fin 8) (t o : Fin 2048) (b : ℕ) :
    part X W1 W3 W2 g t o (512 * b) + ∑ r : Fin 512, term X W1 W3 W2 g t o (512 * b + r.val)
      = part X W1 W3 W2 g t o (512 * (b + 1)) :=
  Cert.RunSums.add_next_run 512 (term X W1 W3 W2 g t o) b

/-- All eleven runs together are the layer's result. -/
theorem part_all (g : Fin 8) (t o : Fin 2048) :
    part X W1 W3 W2 g t o (512 * (10 + 1)) = out X W1 W3 W2 (ix3 g t o) := by
  unfold part out
  rw [show 512 * (10 + 1) = 5632 from rfl, Cert.RunSums.whole_column]
  exact Finset.sum_congr rfl fun k _ => by unfold term; rw [dif_pos k.isLt]

end Cert.Ffn

end
-- ==== Proof.Blocks.lean ====
/-
  Where each block of the grid sits in its array.

  The grid has 8 · 4 · 11 = 352 points; point `t` works on group `t / 44`, on the token rows
  `512 · (t / 11 mod 4) …` and on the hidden columns `512 · (t mod 11) …`. The arrays the region reads are the four
  arguments narrowed to bf16 by the host, which on the extended reals changes nothing. So each input block, read at a
  position inside the block, is an entry of the matching argument array.
-/
import proofs.«172303_j13709535609205_1_alg».proof.Proof.Gen.KernelIdeal.Frame
import proofs.«172303_j13709535609205_1_alg».proof.Proof.Spec
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.Ffn.Blocks

open Cert.KernelIdeal Cert.KernelIdeal.Gen Cert.Ffn

variable (m : (ℓ : Loc nD τ sig) → Buf (Elt Ideal) ℓ)

/-- The four argument arrays on core `c`: tokens, first up-projection, down-projection, second up-projection. -/
abbrev X (c : Dev nD) : SX.Idx → EReal := m ((c : Thread nD τ).loc main_arg0)
abbrev W1 (c : Dev nD) : SU.Idx → EReal := m ((c : Thread nD τ).loc main_arg1)
abbrev W2 (c : Dev nD) : SD.Idx → EReal := m ((c : Thread nD τ).loc main_arg2)
abbrev W3 (c : Dev nD) : SU.Idx → EReal := m ((c : Thread nD τ).loc main_arg3)

theorem hN : cfg0.N = 352 := N_0

/-- Point `t`'s group, the array row of its block row `p`, and the hidden column of its block column `r`. -/
def grp (t : Fin cfg0.N) : Fin 8 := ⟨t.val / 44, by have := t.isLt; have := hN; omega⟩
def row (t : Fin cfg0.N) (p : Fin 512) : Fin 2048 := ⟨t.val / 11 % 4 * 512 + p.val, by have := p.isLt; omega⟩
def col (t : Fin cfg0.N) (r : Fin 512) : Fin 5632 := ⟨512 * (t.val % 11) + r.val, by have := r.isLt; omega⟩

/-- The block indices of the five windows at each point, decided over the grid. -/
theorem idx_facts : ∀ t : Fin cfg0.N,
    (win0_0.index t (0 : Fin 3) = t.val / 44 ∧ win0_0.index t (1 : Fin 3) = t.val / 11 % 4 ∧ win0_0.index t (2 : Fin 3) = 0)
    ∧ (win0_1.index t (0 : Fin 3) = t.val / 44 ∧ win0_1.index t (1 : Fin 3) = 0 ∧ win0_1.index t (2 : Fin 3) = t.val % 11)
    ∧ (win0_2.index t (0 : Fin 3) = t.val / 44 ∧ win0_2.index t (1 : Fin 3) = 0 ∧ win0_2.index t (2 : Fin 3) = t.val % 11)
    ∧ (win0_3.index t (0 : Fin 3) = t.val / 44 ∧ win0_3.index t (1 : Fin 3) = t.val % 11 ∧ win0_3.index t (2 : Fin 3) = 0)
    ∧ (win0_4.index t (0 : Fin 3) = t.val / 44 ∧ win0_4.index t (1 : Fin 3) = t.val / 11 % 4 ∧ win0_4.index t (2 : Fin 3) = 0) :=
  (by decide +kernel : ∀ t : Fin grid0.N, _)

/-- The arrays the region reads are the arguments themselves: narrowing to bf16 is the identity on the extended reals. -/
theorem V_v0 (c : Dev nD) : (V m c main_v0 : S8x2048x2048.Idx → EReal) = X m c := by
  dsimp only [Gen.V, Gen.hostOps0]; after_results; rfl
theorem V_v1 (c : Dev nD) : (V m c main_v1 : S8x2048x5632.Idx → EReal) = W1 m c := by
  dsimp only [Gen.V, Gen.hostOps0]; after_results; rfl
theorem V_v2 (c : Dev nD) : (V m c main_v2 : S8x2048x5632.Idx → EReal) = W3 m c := by
  dsimp only [Gen.V, Gen.hostOps0]; after_results; rfl
theorem V_v3 (c : Dev nD) : (V m c main_v3 : S8x5632x2048.Idx → EReal) = W2 m c := by
  dsimp only [Gen.V, Gen.hostOps0]; after_results; rfl

/-- The four input blocks of point `t`, at their literal shapes. -/
abbrev xblk (c : Dev nD) (t : Fin cfg0.N) : Vec Ideal S1x512x2048 .bf16 := iblk m c 0 t
abbrev ublk (c : Dev nD) (t : Fin cfg0.N) : Vec Ideal S1x2048x512 .bf16 := iblk m c 1 t
abbrev vblk (c : Dev nD) (t : Fin cfg0.N) : Vec Ideal S1x2048x512 .bf16 := iblk m c 2 t
abbrev wblk (c : Dev nD) (t : Fin cfg0.N) : Vec Ideal S1x512x2048 .bf16 := iblk m c 3 t

/-- The token block's row `p` is array row `row t p` of group `grp t`. -/
theorem xblk_apply (c : Dev nD) (t : Fin cfg0.N) (p : Fin 512) (d : Fin 2048) :
    xblk m c t (ix3 (0 : Fin 1) p d) = X m c (ix3 (grp t) (row t p) d) := by
  obtain ⟨⟨e0, e1, e2⟩, -⟩ := idx_facts t
  show V m c main_v0 (((cfg0.win 0).blk t).view.emb (ix3 (0 : Fin 1) p d)) = _
  rw [V_v0]
  refine congrArg (X m c) ?_
  funext a; apply Fin.ext
  match a with
  | ⟨0, _⟩ => show win0_0.index t (0 : Fin 3) * 1 + 1 * 0 = t.val / 44; omega
  | ⟨1, _⟩ => show win0_0.index t (1 : Fin 3) * 512 + 1 * p.val = t.val / 11 % 4 * 512 + p.val; omega
  | ⟨2, _⟩ => show win0_0.index t (2 : Fin 3) * 2048 + 1 * d.val = d.val; omega

/-- The first up-projection block's column `r` is hidden column `col t r`. -/
theorem ublk_apply (c : Dev nD) (t : Fin cfg0.N) (d : Fin 2048) (r : Fin 512) :
    ublk m c t (ix3 (0 : Fin 1) d r) = W1 m c (ix3 (grp t) d (col t r)) := by
  obtain ⟨-, ⟨e0, e1, e2⟩, -⟩ := idx_facts t
  show V m c main_v1 (((cfg0.win 1).blk t).view.emb (ix3 (0 : Fin 1) d r)) = _
  rw [V_v1]
  refine congrArg (W1 m c) ?_
  funext a; apply Fin.ext
  match a with
  | ⟨0, _⟩ => show win0_1.index t (0 : Fin 3) * 1 + 1 * 0 = t.val / 44; omega
  | ⟨1, _⟩ => show win0_1.index t (1 : Fin 3) * 2048 + 1 * d.val = d.val; omega
  | ⟨2, _⟩ => show win0_1.index t (2 : Fin 3) * 512 + 1 * r.val = 512 * (t.val % 11) + r.val; omega

/-- The second up-projection block likewise. -/
theorem vblk_apply (c : Dev nD) (t : Fin cfg0.N) (d : Fin 2048) (r : Fin 512) :
    vblk m c t (ix3 (0 : Fin 1) d r) = W3 m c (ix3 (grp t) d (col t r)) := by
  obtain ⟨-, -, ⟨e0, e1, e2⟩, -⟩ := idx_facts t
  show V m c main_v2 (((cfg0.win 2).blk t).view.emb (ix3 (0 : Fin 1) d r)) = _
  rw [V_v2]
  refine congrArg (W3 m c) ?_
  funext a; apply Fin.ext
  match a with
  | ⟨0, _⟩ => show win0_2.index t (0 : Fin 3) * 1 + 1 * 0 = t.val / 44; omega
  | ⟨1, _⟩ => show win0_2.index t (1 : Fin 3) * 2048 + 1 * d.val = d.val; omega
  | ⟨2, _⟩ => show win0_2.index t (2 : Fin 3) * 512 + 1 * r.val = 512 * (t.val % 11) + r.val; omega

/-- The down-projection block's row `r` is hidden row `col t r`. -/
theorem wblk_apply (c : Dev nD) (t : Fin cfg0.N) (r : Fin 512) (q : Fin 2048) :
    wblk m c t (ix3 (0 : Fin 1) r q) = W2 m c (ix3 (grp t) (col t r) q) := by
  obtain ⟨-, -, -, ⟨e0, e1, e2⟩, -⟩ := idx_facts t
  show V m c main_v3 (((cfg0.win 3).blk t).view.emb (ix3 (0 : Fin 1) r q)) = _
  rw [V_v3]
  refine congrArg (W2 m c) ?_
  funext a; apply Fin.ext
  match a with
  | ⟨0, _⟩ => show win0_3.index t (0 : Fin 3) * 1 + 1 * 0 = t.val / 44; omega
  | ⟨1, _⟩ => show win0_3.index t (1 : Fin 3) * 512 + 1 * r.val = 512 * (t.val % 11) + r.val; omega
  | ⟨2, _⟩ => show win0_3.index t (2 : Fin 3) * 2048 + 1 * q.val = q.val; omega

end Cert.Ffn.Blocks

end
-- ==== Proof.Accum.lean ====
/-
  The running block after every grid point.

  Along one run of eleven points over the hidden axis (points `11·j … 11·j + 10`: one group, one block of 512 token rows)
  the scratch block holds, after the point at hidden step `b`, the sum of the first `512 · (b + 1)` terms of each entry's
  contraction: the first point starts from the zero block, every later point adds its 512 terms to what the point
  before left. After the last point of the run that is the whole contraction, and that point copies the block out.
-/
import proofs.«172303_j13709535609205_1_alg».proof.Proof.Pieces
import proofs.«172303_j13709535609205_1_alg».proof.Proof.Payload
import proofs.«172303_j13709535609205_1_alg».proof.Proof.Blocks

set_option maxRecDepth 16384

noncomputable section

open scoped BigOperators
open Idealize.ShloMosaic Idealize.ShloMosaic.TcCoe Idealize.SL.Sem Idealize.ShloMosaic.ValueIdx

namespace Cert.Ffn.Accum

open Cert.KernelIdeal Cert.KernelIdeal.Gen Cert.Ffn Cert.Ffn.Blocks Cert.Ffn.Payload

variable (m : (ℓ : Loc nD τ sig) → Buf (Elt Ideal) ℓ)

/-- The scratch block after point `n`. -/
abbrev sc (c : Dev nD) (n : ℕ) (h : n < cfg0.N) : Vec Ideal S512x2048 .f32 := (outsAt0 m c n h).2

/-- A block's projection is the array's, at the block's place. -/
theorem bproj_u (c : Dev nD) (t : Fin cfg0.N) (p r : Fin 512) :
    bproj (xblk m c t) (ublk m c t) p r = proj (X m c) (W1 m c) (grp t) (row t p) (col t r) := by
  unfold bproj proj
  exact Finset.sum_congr rfl fun d _ => by rw [xblk_apply, ublk_apply]
theorem bproj_v (c : Dev nD) (t : Fin cfg0.N) (p r : Fin 512) :
    bproj (xblk m c t) (vblk m c t) p r = proj (X m c) (W3 m c) (grp t) (row t p) (col t r) := by
  unfold bproj proj
  exact Finset.sum_congr rfl fun d _ => by rw [xblk_apply, vblk_apply]

/-- The 512 terms point `t` adds at entry `(p, q)` are the terms `512 · (t mod 11) …` of the entry's contraction. -/
theorem contribution (c : Dev nD) (t : Fin cfg0.N) (p : Fin 512) (q : Fin 2048) :
    ∑ r : Fin 512, bgate (xblk m c t) (ublk m c t) (vblk m c t) p r * wblk m c t (ix3 (0 : Fin 1) r q)
      = ∑ r : Fin 512, term (X m c) (W1 m c) (W3 m c) (W2 m c) (grp t) (row t p) q (512 * (t.val % 11) + r.val) := by
  refine Finset.sum_congr rfl fun r _ => ?_
  have hr : 512 * (t.val % 11) + r.val < 5632 := by have := r.isLt; omega
  unfold term
  rw [dif_pos hr, wblk_apply]
  unfold bgate gate
  rw [bproj_u, bproj_v]
  rfl

/-- At the first point of a run the scratch block starts from zero: it holds the run's first 512 terms. -/
theorem sc_first (c : Dev nD) (t : Fin cfg0.N) (h0 : t.val % 11 = 0) (p : Fin 512) (q : Fin 2048) :
    sc m c t.val t.isLt (ix2 p q)
      = part (X m c) (W1 m c) (W3 m c) (W2 m c) (grp t) (row t p) q (512 * (0 + 1)) := by
  have h1 : ¬t.val % 11 = 10 := by omega
  show (outsAt0 m c t.val t.isLt).2 (ix2 p q) = _
  rw [outsAt0_A m c t h0 h1]
  dsimp only
  refine (congrFun (Pieces.sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xblk m c t) (ublk m c t) (vblk m c t) (wblk m c t)) (ix2 p q)).trans ?_
  refine (pay2_apply (xblk m c t) (ublk m c t) (vblk m c t) (k0_pay1 (F := Ideal)) (wblk m c t) p q).trans ?_
  rw [pay1_apply, contribution, h0]
  exact part_first (X m c) (W1 m c) (W3 m c) (W2 m c) (grp t) (row t p) q

/-- At every later point of a run the scratch block is what the point before left plus this point's 512 terms. -/
theorem sc_next (c : Dev nD) (t : Fin cfg0.N) (h0 : ¬t.val % 11 = 0) (p : Fin 512) (q : Fin 2048) :
    sc m c t.val t.isLt (ix2 p q)
      = sc m c (t.val - 1) (Nat.lt_of_le_of_lt (Nat.sub_le _ _) t.isLt) (ix2 p q)
        + ∑ r : Fin 512, term (X m c) (W1 m c) (W3 m c) (W2 m c) (grp t) (row t p) q (512 * (t.val % 11) + r.val) := by
  show (outsAt0 m c t.val t.isLt).2 (ix2 p q) = _
  by_cases h1 : t.val % 11 = 10
  · rw [outsAt0_C m c t h0 h1]
    dsimp only
    refine (congrFun (Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (ublk m c t) (vblk m c t) (wblk m c t) (sc m c (t.val - 1) (Nat.lt_of_le_of_lt (Nat.sub_le _ _) t.isLt))) (ix2 p q)).trans ?_
    refine (pay2_apply (xblk m c t) (ublk m c t) (vblk m c t) (sc m c (t.val - 1) (Nat.lt_of_le_of_lt (Nat.sub_le _ _) t.isLt)) (wblk m c t) p q).trans ?_
    rw [contribution]
  · rw [outsAt0_B m c t h0 h1]
    dsimp only
    refine (congrFun (Pieces.sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xblk m c t) (ublk m c t) (vblk m c t) (wblk m c t) (sc m c (t.val - 1) (Nat.lt_of_le_of_lt (Nat.sub_le _ _) t.isLt))) (ix2 p q)).trans ?_
    refine (pay2_apply (xblk m c t) (ublk m c t) (vblk m c t) (sc m c (t.val - 1) (Nat.lt_of_le_of_lt (Nat.sub_le _ _) t.isLt)) (wblk m c t) p q).trans ?_
    rw [contribution]

/-- THE INVARIANT: after point `n`, at hidden step `n mod 11` of its run, entry `(p, q)` of the scratch block is the sum of the
    first `512 · (n mod 11 + 1)` terms of the contraction for the point's group, the block's token row `p` and column `q`. -/
theorem sc_eq (c : Dev nD) : ∀ (n : ℕ) (h : n < cfg0.N) (p : Fin 512) (q : Fin 2048),
    sc m c n h (ix2 p q)
      = part (X m c) (W1 m c) (W3 m c) (W2 m c) (grp ⟨n, h⟩) (row ⟨n, h⟩ p) q (512 * (n % 11 + 1)) := by
  intro n
  induction n with
  | zero =>
    intro h p q
    exact sc_first m c ⟨0, h⟩ rfl p q
  | succ k ih =>
    intro h p q
    by_cases h0 : (k + 1) % 11 = 0
    · rw [h0]
      exact sc_first m c ⟨k + 1, h⟩ h0 p q
    · have hk : k < cfg0.N := Nat.lt_of_succ_lt h
      have eg : grp ⟨k, hk⟩ = grp ⟨k + 1, h⟩ := Fin.ext (by show k / 44 = (k + 1) / 44; omega)
      have er : row ⟨k, hk⟩ p = row ⟨k + 1, h⟩ p := Fin.ext (by show k / 11 % 4 * 512 + p.val = (k + 1) / 11 % 4 * 512 + p.val; omega)
      refine (sc_next m c ⟨k + 1, h⟩ h0 p q).trans ?_
      show sc m c k hk (ix2 p q) + _ = _
      rw [ih hk p q, eg, er, show 512 * (k % 11 + 1) = 512 * ((k + 1) % 11) from by omega]
      exact part_next (X m c) (W1 m c) (W3 m c) (W2 m c) (grp ⟨k + 1, h⟩) (row ⟨k + 1, h⟩ p) q ((k + 1) % 11)

/-- At the last point of a run the block copied to the output's buffer is the scratch block, -/
theorem out_eq_sc (c : Dev nD) (t : Fin cfg0.N) (h1 : t.val % 11 = 10) (u : Fin 1) (p : Fin 512) (q : Fin 2048) :
    ((outsAt0 m c t.val t.isLt).1 : Vec Ideal S1x512x2048 .f32) (ix3 u p q) = sc m c t.val t.isLt (ix2 p q) := by
  have h0 : ¬t.val % 11 = 0 := by omega
  show (outsAt0 m c t.val t.isLt).1 (ix3 u p q) = (outsAt0 m c t.val t.isLt).2 (ix2 p q)
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (ublk m c t) (vblk m c t) (wblk m c t) (sc m c (t.val - 1) (Nat.lt_of_le_of_lt (Nat.sub_le _ _) t.isLt))) (ix3 u p q)).trans ?_
  refine (pay3_apply _ u p q).trans ?_
  exact (congrFun (Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (ublk m c t) (vblk m c t) (wblk m c t) (sc m c (t.val - 1) (Nat.lt_of_le_of_lt (Nat.sub_le _ _) t.isLt))) (ix2 p q)).symm

/-- and that is the layer's result at the group, the token row and the column. -/
theorem out_last (c : Dev nD) (t : Fin cfg0.N) (h1 : t.val % 11 = 10) (u : Fin 1) (p : Fin 512) (q : Fin 2048) :
    ((outsAt0 m c t.val t.isLt).1 : Vec Ideal S1x512x2048 .f32) (ix3 u p q)
      = out (X m c) (W1 m c) (W3 m c) (W2 m c) (ix3 (grp t) (row t p) q) := by
  rw [out_eq_sc m c t h1 u p q, sc_eq m c t.val t.isLt p q, h1]
  exact part_all (X m c) (W1 m c) (W3 m c) (W2 m c) (grp t) (row t p) q

end Cert.Ffn.Accum

end
-- ==== Proof.KernelRun.lean ====
/-
  The kernel's result array.

  The output window is written back only after the last point of each run of eleven, and what is written back there
  is the finished block: 512 token rows of one group, all 2048 columns, each entry the whole contraction over the
  5632 hidden columns. The 32 runs' blocks tile the `[8, 2048, 2048]` result array, so after the region the array is
  the layer's function of the four argument arrays at every index.
-/
import proofs.«172303_j13709535609205_1_alg».proof.Proof.Accum
import proofs.«172303_j13709535609205_1_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Cert.Ffn.KernelRun

open Cert.KernelIdeal Cert.KernelIdeal.Gen Cert.Ffn Cert.Ffn.Blocks Cert.Ffn.Accum

variable (m : (ℓ : Loc nD τ sig) → Buf (Elt Ideal) ℓ) (ρ : Dev nD → PrngReg)

/-- The layer's result on core `c`'s argument arrays. -/
abbrev G (c : Dev nD) : S8x2048x2048.Idx → EReal := out (X m c) (W1 m c) (W3 m c) (W2 m c)

/-- The block written back after the last point of a run, entry by entry, is the layer's result at the block's place. -/
theorem last_block (c : Dev nD) (t : Fin cfg0.N) (h1 : t.val % 11 = 10) (j : S1x512x2048.Idx) :
    ((outsAt0 m c t.val t.isLt).1 : Vec Ideal S1x512x2048 .f32) j = G m c (((cfg0.win 4).blk t).view.emb j) := by
  obtain ⟨-, -, -, -, ⟨e0, e1, e2⟩⟩ := idx_facts t
  obtain ⟨u, p, q, rfl⟩ : ∃ (u : Fin 1) (p : Fin 512) (q : Fin 2048), j = ix3 u p q := ⟨j 0, j 1, j 2, eq_ix3 j⟩
  rw [out_last m c t h1 u p q]
  refine congrArg (G m c) ?_
  funext a; apply Fin.ext
  have hu : u.val = 0 := by omega
  match a with
  | ⟨0, _⟩ => show t.val / 44 = win0_4.index t (0 : Fin 3) * 1 + 1 * u.val; omega
  | ⟨1, _⟩ => show t.val / 11 % 4 * 512 + p.val = win0_4.index t (1 : Fin 3) * 512 + 1 * p.val; omega
  | ⟨2, _⟩ => show q.val = win0_4.index t (2 : Fin 3) * 2048 + 1 * q.val; omega

/-- What a writing-back point writes back is its block of the layer's result. -/
theorem flushed_eq (c : Dev nD) (t : Fin cfg0.N) (hf : (cfg0.win 4).flush t = true) :
    (dats m 0 c).flushed 4 t = ((cfg0.win 4).blk t).view.read (Elt Ideal) (G m c) := by
  have h1 : t.val % 11 = 10 := (flush0_4 t).mp hf
  rw [Cert.KernelIdeal.Value.flushed4]
  funext j
  exact last_block m c t h1 j

/-- An index of the result array lies in point `t`'s block iff each coordinate lies in the block's range on its axis. -/
theorem mem_blk (t : Fin cfg0.N) (i : S8x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v4).slice (win0_4.rect t)).set ↔ _
  rw [View.set_slice_whole, Rect.mem_set_unit]
  exact Iff.rfl

/-- Every index of the result array is in the block of the last point of its group's and token block's run. -/
theorem cover (i : S8x2048x2048.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 2048 := (i 2).isLt
  have hlt : ((i 0).val * 4 + (i 1).val / 512) * 11 + 10 < cfg0.N := by have := hN; omega
  obtain ⟨-, -, -, -, ⟨e0, e1, e2⟩⟩ := idx_facts ⟨((i 0).val * 4 + (i 1).val / 512) * 11 + 10, hlt⟩
  refine ⟨⟨((i 0).val * 4 + (i 1).val / 512) * 11 + 10, hlt⟩, (flush0_4 _).mpr (by show (((i 0).val * 4 + (i 1).val / 512) * 11 + 10) % 11 = 10; omega), ?_⟩
  rw [mem_blk]
  dsimp only at e0 e1 e2
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 512 ≤ (i 1).val ∧ (i 1).val < win0_4.index _ (1 : Fin 3) * 512 + 512
    omega
  | ⟨2, _⟩ =>
    show win0_4.index _ (2 : Fin 3) * 2048 ≤ (i 2).val ∧ (i 2).val < win0_4.index _ (2 : Fin 3) * 2048 + 2048
    omega

/-- After the region the result array is the layer's function of the argument arrays. -/
theorem final (c : Dev nD) : (dats m 0 c).arrAt 4 cfg0.N = G m c :=
  (dats m 0 c).arrAt_eq_of_cover 4 (G m c) (flushed_eq m c) cover

/-- The kernel's run: it terminates with the result array at the layer's function and the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Ffn.KernelRun

end
-- ==== Proof.RefValue.lean ====
/-
  The reference computes the layer's function.

  Its three batched products contract the last axis of the left operand with the middle axis of the right, group by
  group: on the extended reals each is the plain sum over the contracted coordinate. Between them it spells the gate as
  `a · (1 / (1 + e^(-a)))`, with the literal `1.0` the real one: that quotient is the logistic function of `a`.
-/
import proofs.«172303_j13709535609205_1_alg».proof.Proof.Gen.ReferenceIdeal.Read
import proofs.«172303_j13709535609205_1_alg».proof.Proof.Spec
import Idealize.ShloMosaic.Lib.IdealHost

noncomputable section

open scoped BigOperators
open Idealize.ShloMosaic Idealize.ShloMosaic.ValueIdx

namespace Cert.Ffn.RefSide

open Cert.ReferenceIdeal Cert.ReferenceIdeal.Read Cert.Ffn

/-- The first product at `(g, t, h)` is the token's projection onto hidden column `h`. -/
theorem v0_apply (x0 : SX.Idx → EReal) (x1 : SU.Idx → EReal) (g : Fin 8) (t : Fin 2048) (h : Fin 5632) :
    val_main_v0 (F := Ideal) x0 x1 (ix3 g t h) = proj x0 x1 g t h := by
  rw [val_main_v0_apply]
  unfold proj
  refine Finset.sum_congr rfl fun d _ => ?_
  have el : lidx_main_v0 (ix3 g t h) d = ix3 g t d := funext fun a => Fin.ext (by
    match a with
    | ⟨0, _⟩ => rfl
    | ⟨1, _⟩ => rfl
    | ⟨2, _⟩ => rfl)
  have er : ridx_main_v0 (ix3 g t h) d = ix3 g d h := funext fun a => Fin.ext (by
    match a with
    | ⟨0, _⟩ => rfl
    | ⟨1, _⟩ => rfl
    | ⟨2, _⟩ => rfl)
  rw [el, er]

/-- The second product likewise, against the other up-projection. -/
theorem v1_apply (x0 : SX.Idx → EReal) (x3 : SU.Idx → EReal) (g : Fin 8) (t : Fin 2048) (h : Fin 5632) :
    val_main_v1 (F := Ideal) x0 x3 (ix3 g t h) = proj x0 x3 g t h := by
  rw [val_main_v1_apply]
  unfold proj
  refine Finset.sum_congr rfl fun d _ => ?_
  have el : lidx_main_v1 (ix3 g t h) d = ix3 g t d := funext fun a => Fin.ext (by
    match a with
    | ⟨0, _⟩ => rfl
    | ⟨1, _⟩ => rfl
    | ⟨2, _⟩ => rfl)
  have er : ridx_main_v1 (ix3 g t h) d = ix3 g d h := funext fun a => Fin.ext (by
    match a with
    | ⟨0, _⟩ => rfl
    | ⟨1, _⟩ => rfl
    | ⟨2, _⟩ => rfl)
  rw [el, er]

/-- The reference's quotient `1 / (1 + e^(-a))` is the logistic function of `a`. -/
theorem v5_apply (x0 : SX.Idx → EReal) (x1 : SU.Idx → EReal) (g : Fin 8) (t : Fin 2048) (h : Fin 5632) :
    val_main_call0_v5 (F := Ideal) x0 x1 (ix3 g t h) = Ideal.logistic (proj x0 x1 g t h) := by
  rw [val_main_call0_v5_apply, val_main_call0_v4_apply, val_main_call0_cst_0_apply, val_main_call0_v3_apply,
    val_main_call0_v2_apply, val_main_call0_cst_apply, val_main_call0_v1_apply, val_main_call0_v0_apply, v0_apply]
  simp only [Ideal.ofBits_def, Ideal.ofBits_one_f32]
  rfl

/-- The gated activation, as the reference multiplies it out. -/
theorem v3_apply (x0 : SX.Idx → EReal) (x1 x3 : SU.Idx → EReal) (g : Fin 8) (t : Fin 2048) (h : Fin 5632) :
    val_main_v3 (F := Ideal) x0 x1 x3 (ix3 g t h) = gate x0 x1 x3 g t h := by
  rw [val_main_v3_apply, val_main_v2_apply, v5_apply, v0_apply, v1_apply]
  rfl

/-- The reference's result is the layer's function of the four arrays. -/
theorem result_eq (x0 : SX.Idx → EReal) (x1 : SU.Idx → EReal) (x2 : SD.Idx → EReal) (x3 : SU.Idx → EReal) :
    val_main_v4 (F := Ideal) x0 x1 x2 x3 = out x0 x1 x3 x2 := by
  funext i
  obtain ⟨g, t, o, rfl⟩ : ∃ (g : Fin 8) (t : Fin 2048) (o : Fin 2048), i = ix3 g t o := ⟨i 0, i 1, i 2, eq_ix3 i⟩
  rw [val_main_v4_apply]
  unfold out
  refine Finset.sum_congr rfl fun k _ => ?_
  have el : lidx_main_v4 (ix3 g t o) k = ix3 g t k := funext fun a => Fin.ext (by
    match a with
    | ⟨0, _⟩ => rfl
    | ⟨1, _⟩ => rfl
    | ⟨2, _⟩ => rfl)
  have er : ridx_main_v4 (ix3 g t o) k = ix3 g k o := funext fun a => Fin.ext (by
    match a with
    | ⟨0, _⟩ => rfl
    | ⟨1, _⟩ => rfl
    | ⟨2, _⟩ => rfl)
  rw [el, er, v3_apply]

end Cert.Ffn.RefSide

end
-- ==== Proof.lean ====
/-
  A gated feed-forward layer over 8 groups, 2048 tokens a group, width 2048 and 5632 hidden columns:

    out[g, t, o] = Σ_h ((a · logistic a) · b)(g, t, h) · W₂[g, h, o],   a = Σ_d X[g, t, d] · W₁[g, d, h],  b = Σ_d X[g, t, d] · W₃[g, d, h].

  The kernel walks a grid of 8 · 4 · 11 points: for each group and each block of 512 tokens it takes the hidden axis in
  eleven runs of 512 columns, recomputes the gated activation of the run from the token block and the two up-projection
  blocks, contracts it with the matching 512 rows of the down-projection, and adds the result to a running block that
  starts at zero; after the eleventh run the block is written to the result. The reference contracts all 5632 hidden
  columns at once. On the extended reals the narrowing of the operands to bf16 is the identity, the matrix products are
  plain sums, the kernel's logistic function is the reference's `1 / (1 + e^(-a))`, and eleven partial sums of 512
  consecutive terms add up to the sum of all 5632 by associativity and commutativity alone — so the two programs end
  with equal results whatever the (extended real) entries are, and the precondition is not used.

  Spec            the layer as one function of its arrays; partial sums over the hidden axis.
  Pieces          what one run of the body leaves in the scratch block and in the output's buffer.
  Payload         one update of the running block, entry by entry.
  Blocks          where each grid point's blocks sit in the arrays.
  Accum           the running block after every grid point (induction over the points).
  KernelRun       the result array after the region: the 32 finished blocks tile it.
  RefValue        the reference's three products and its gate are the same function.
-/
import proofs.«172303_j13709535609205_1_alg».proof.Defs
import proofs.«172303_j13709535609205_1_alg».proof.Proof.Gen.Kernel
import proofs.«172303_j13709535609205_1_alg».proof.Proof.Gen.Kernel.Skeleton
import proofs.«172303_j13709535609205_1_alg».proof.Proof.Gen.Kernel.Launch
import proofs.«172303_j13709535609205_1_alg».proof.Proof.Gen.Kernel.Points
import proofs.«172303_j13709535609205_1_alg».proof.Proof.Gen.Kernel.Frame
import proofs.«172303_j13709535609205_1_alg».proof.Proof.Gen.KernelIdeal
import proofs.«172303_j13709535609205_1_alg».proof.Proof.Gen.KernelIdeal.Skeleton
import proofs.«172303_j13709535609205_1_alg».proof.Proof.Gen.KernelIdeal.Launch
import proofs.«172303_j13709535609205_1_alg».proof.Proof.Gen.KernelIdeal.Points
import proofs.«172303_j13709535609205_1_alg».proof.Proof.Gen.KernelIdeal.Frame
import proofs.«172303_j13709535609205_1_alg».proof.Proof.Gen.ReferenceIdeal
import proofs.«172303_j13709535609205_1_alg».proof.Proof.Gen.KernelIdeal.Value
import proofs.«172303_j13709535609205_1_alg».proof.Proof.Gen.ReferenceIdeal.Run
import proofs.«172303_j13709535609205_1_alg».proof.Proof.Gen.ReferenceIdeal.Read
import proofs.«172303_j13709535609205_1_alg».proof.Proof.Gen.Pre_finite_inputs
import proofs.«172303_j13709535609205_1_alg».proof.Proof.KernelRun
import proofs.«172303_j13709535609205_1_alg».proof.Proof.RefValue
import Idealize.ShloMosaic.Adequacy
import Idealize.ShloMosaic.Init

noncomputable section

namespace Cert.Proof

open Idealize.ShloMosaic Idealize.SL.Sem

/-- The word-level kernel and its idealization run to the end and leave their arguments as they were. -/
theorem frame_k : Cert.frame_Kernel := fun m ρ _ => Cert.Kernel.Gen.frame m ρ
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's function of the argument arrays: the kernel by its eleven-step accumulation over
    each block, the reference by its three whole products. -/
theorem algebraic : Cert.algebraic_KernelIdeal_ReferenceIdeal := by
  intro m ρ m' ρ' _ hagree
  refine ⟨fun c => Cert.Ffn.KernelRun.G m c, Cert.Ffn.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.Ffn.RefSide.result_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
